-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S64x64x64 : Shape := ⟨3, ![64, 64, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x64x64 : S_.BroadcastsInDim S64x64x64 (![] : Fin 0 → Fin S64x64x64.rank)
  reducesTo_S64x64x64_S_d0_1_2 : S64x64x64.ReducesTo [0, 1, 2] S_

variable [Facts]

def fn {F : FTy → Type} [FloatOps F] (main_arg0 : FVec F S1024x64 .f32) (main_arg1 : FVec F S64x64x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x64x64 .f32 := Host.absf main_arg1
  let main_cst_0 : FVec F S_ .f32 := constant S_ .f32 0x7F800000#32
  let main_v5 : FVec F S64x64x64 .f32 := broadcastInDim S64x64x64 ![] bcast_S_S64x64x64 main_cst_0
  let main_v6 : IVec S64x64x64 1 := cmpf .olt main_v4 main_v5
  let main_c_1 : IVec S_ 1 := constantI S_ 1 1#1
  let main_v7 : IVec S_ 1 := (fun x v => Host.reduce IntOp.andi x v reducesTo_S64x64x64_S_d0_1_2 h_S_) main_v6 main_c_1
  let main_v8 : IVec S_ 1 := andi main_v3 main_v7
  main_v8
-- ==== Kernel.lean ====
abbrev S1024x64 : Shape := ⟨2, ![1024, 64]⟩
abbrev S64x64x64 : Shape := ⟨3, ![64, 64, 64]⟩
abbrev S4096x64 : Shape := ⟨2, ![4096, 64]⟩
abbrev S64x4096 : Shape := ⟨2, ![64, 4096]⟩
abbrev S1024x4096 : Shape := ⟨2, ![1024, 4096]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S1024x64x64 : Shape := ⟨3, ![1024, 64, 64]⟩

abbrev nBuf : Space → Nat
  | .hbm => 6
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S64x64x64, .f32⟩
  | .hbm, ⟨2, _⟩ => ⟨S4096x64, .f32⟩
  | .hbm, ⟨3, _⟩ => ⟨S64x4096, .f32⟩
  | .hbm, ⟨4, _⟩ => ⟨S1024x4096, .f32⟩
  | .hbm, ⟨5, _⟩ => ⟨S1024x64x64, .f32⟩
  | .local _ .vmem, ⟨0, _⟩ => ⟨S256x64, .f32⟩
  | .local _ .vmem, ⟨1, _⟩ => ⟨S256x64, .f32⟩
  | .local _ .vmem, ⟨2, _⟩ => ⟨S64x4096, .f32⟩
  | .local _ .vmem, ⟨3, _⟩ => ⟨S256x4096, .f32⟩
  | .local _ .vmem, ⟨4, _⟩ => ⟨S256x4096, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x64x64_S4096x64 : S64x64x64.ShapeCasts S4096x64
  transposes_S4096x64_S64x4096_1_0 : S4096x64.Transposes [1, 0] S64x4096
  inb_S256x64_S256x64_0_0 : ∀ a, (![0, 0] : Fin 2 → Nat) a + S256x64.size a ≤ S256x64.size a
  h_S256x64 : 0 < S256x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  reduces_S256x64_S256 : S256x64.Reduces [1] S256
  shapeCasts_S256_S256x1 : S256.ShapeCasts S256x1
  reduces_S64x4096_S4096 : S64x4096.Reduces [0] S4096
  shapeCasts_S4096_S1x4096 : S4096.ShapeCasts S1x4096
  bitsLt_bf16_f32 : FTy.bits .bf16 < FTy.bits .f32
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S1024x4096_S1024x64x64 : S1024x4096.ShapeCasts S1024x64x64
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S1024x64.size a
  hwx0_0 : ∀ i : grid0.Coords, EltTy.bits .f32 = 32 ∨ (Rect.block (s := S1024x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S1024x4096.size a
  hwx0_2 : ∀ i : grid0.Coords, EltTy.bits .f32 = 32 ∨ (Rect.block (s := S1024x4096) S256x4096.size (cc0_transform_2 i) (hinb0_2 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S64x64x64 : Shape := ⟨3, ![64, 64, 64]⟩
abbrev S1x64x64x64 : Shape := ⟨4, ![1, 64, 64, 64]⟩
abbrev S1024x1x1x64 : Shape := ⟨4, ![1024, 1, 1, 64]⟩
abbrev S1024x64x64x64 : Shape := ⟨4, ![1024, 64, 64, 64]⟩
abbrev S_ : Shape := ⟨0, ![]⟩
abbrev S1024x64x64 : Shape := ⟨3, ![1024, 64, 64]⟩

abbrev nBuf : Space → Nat
  | .hbm => 10
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S64x64x64, .f32⟩
  | .hbm, ⟨2, _⟩ => ⟨S1x64x64x64, .f32⟩
  | .hbm, ⟨3, _⟩ => ⟨S1024x1x1x64, .f32⟩
  | .hbm, ⟨4, _⟩ => ⟨S1024x64x64x64, .f32⟩
  | .hbm, ⟨5, _⟩ => ⟨S1024x64x64x64, .f32⟩
  | .hbm, ⟨6, _⟩ => ⟨S1024x64x64x64, .f32⟩
  | .hbm, ⟨7, _⟩ => ⟨S1024x64x64x64, .f32⟩
  | .hbm, ⟨8, _⟩ => ⟨S_, .f32⟩
  | .hbm, ⟨9, _⟩ => ⟨S1024x64x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S64x64x64_S1x64x64x64_1_2_3 : S64x64x64.BroadcastsInDim S1x64x64x64 (![1, 2, 3] : Fin 3 → Fin S1x64x64x64.rank)
  bcast_S1024x64_S1024x1x1x64_0_3 : S1024x64.BroadcastsInDim S1024x1x1x64 (![0, 3] : Fin 2 → Fin S1024x1x1x64.rank)
  bcast_S1x64x64x64_S1024x64x64x64_0_1_2_3 : S1x64x64x64.BroadcastsInDim S1024x64x64x64 (![0, 1, 2, 3] : Fin 4 → Fin S1024x64x64x64.rank)
  bcast_S1024x1x1x64_S1024x64x64x64_0_1_2_3 : S1024x1x1x64.BroadcastsInDim S1024x64x64x64 (![0, 1, 2, 3] : Fin 4 → Fin S1024x64x64x64.rank)
  reducesTo_S1024x64x64x64_S1024x64x64_d3 : S1024x64x64x64.ReducesTo [3] S1024x64x64
  h_S_ : 0 < S_.numel

variable [Facts₀]

class Facts : Prop extends Facts₀ where

variable [Facts]
-- ==== Proof.SqDistLaw.lean ====
/-
  Squared distances to a codebook, two ways.

  For a point `x` (a row of 64 reals) and a codeword `w` (64 reals) the squared Euclidean distance is
  `∑ d, (w d - x d)²`.  Expanding the square gives `∑ d, x d² + ∑ d, w d² - 2 · ∑ d, x d · w d`: two norms and one
  inner product.  Over the extended reals the expansion needs every entry FINITE (distributivity fails at the
  infinities), so the law is stated for real entries coerced into `EReal`.

  This module states both whole-array functions index by index — `sqDist` (the difference form, over the
  codebook as a 64 × 64 grid of codewords) and `normsMinusCross` (the expanded form, over the codebook flattened
  to 4096 columns and transposed) — and proves that they agree when all entries are real.
-/
import Idealize.ShloMosaic.PureOps.Ideal
import Idealize.ShloMosaic.PureOps.Ideal.Laws
import Idealize.ShloMosaic.Lib.ValueIdx

noncomputable section

namespace Cert.Som

open Idealize.ShloMosaic Idealize.ShloMosaic.ValueIdx

/-- The f32 pattern of `2.0` denotes the real number two. -/
theorem two_f32 : Ideal.ofBits .f32 0x40000000#32 = ((2 : ℝ) : EReal) := by
  simp [Ideal.ofBits, Ideal.ieee, -EReal.coe_mul]; norm_num

/-- The coercion of reals into the extended reals commutes with a finite sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The expanded square, summed: for real `a k`, `b k`,
    `(∑ a² + ∑ b²) - 2 · ∑ a·b = ∑ (b - a)²`, read in the extended reals. -/
theorem norms_minus_cross {n : ℕ} (a b : Fin n → ℝ) :
    ((∑ k, (a k : EReal) * (a k : EReal)) + ∑ k, (b k : EReal) * (b k : EReal))
        - ((2 : ℝ) : EReal) * ∑ k, (a k : EReal) * (b k : EReal)
      = ∑ k, ((b k : EReal) - (a k : EReal)) * ((b k : EReal) - (a k : EReal)) := by
  simp only [← EReal.coe_mul, ← EReal.coe_sub, ← coe_sum, ← EReal.coe_add]
  refine congrArg _ ?_
  rw [Finset.mul_sum, ← Finset.sum_add_distrib, ← Finset.sum_sub_distrib]
  exact Finset.sum_congr rfl fun k _ => by ring

/-- Every entry of an array of extended reals is a real number. -/
def AllReal {s : Shape} (v : s.Idx → EReal) : Prop := ∀ i, ∃ r : ℝ, v i = (r : EReal)

abbrev SX : Shape := ⟨2, ![1024, 64]⟩
abbrev SW : Shape := ⟨3, ![64, 64, 64]⟩
abbrev SWt : Shape := ⟨2, ![64, 4096]⟩
abbrev SD : Shape := ⟨2, ![1024, 4096]⟩
abbrev SO : Shape := ⟨3, ![1024, 64, 64]⟩

/-- The squared distance from point `b` to the codeword at grid cell `(g0, g1)`. -/
def sqDistAt (x : SX.Idx → EReal) (w : SW.Idx → EReal) (b : Fin 1024) (g0 g1 : Fin 64) : EReal :=
  ∑ d : Fin 64, (w (ix3 g0 g1 d) - x (ix2 b d)) * (w (ix3 g0 g1 d) - x (ix2 b d))

/-- All squared distances: points × grid rows × grid columns. -/
def sqDist (x : SX.Idx → EReal) (w : SW.Idx → EReal) : SO.Idx → EReal := fun i => sqDistAt x w (i 0) (i 1) (i 2)

/-- The expanded form at point `b` and flattened codeword `g`, over the codebook transposed (`wt (d, g)`). -/
def normsMinusCrossAt (x : SX.Idx → EReal) (wt : SWt.Idx → EReal) (b : Fin 1024) (g : Fin 4096) : EReal :=
  ((∑ d : Fin 64, x (ix2 b d) * x (ix2 b d)) + ∑ d : Fin 64, wt (ix2 d g) * wt (ix2 d g))
    - Ideal.ofBits .f32 0x40000000#32 * ∑ d : Fin 64, x (ix2 b d) * wt (ix2 d g)

/-- The expanded form as a 1024 × 4096 array. -/
def normsMinusCross (x : SX.Idx → EReal) (wt : SWt.Idx → EReal) : SD.Idx → EReal := fun i => normsMinusCrossAt x wt (i 0) (i 1)

/-- Where the transposed codebook's column `g` is the codeword at `(g0, g1)` and all entries are real, the expanded
    form is the squared distance. -/
theorem normsMinusCrossAt_eq (x : SX.Idx → EReal) (w : SW.Idx → EReal) (wt : SWt.Idx → EReal)
    (hx : AllReal x) (hw : AllReal w) (b : Fin 1024) (g : Fin 4096) (g0 g1 : Fin 64)
    (hwt : ∀ d : Fin 64, wt (ix2 d g) = w (ix3 g0 g1 d)) :
    normsMinusCrossAt x wt b g = sqDistAt x w b g0 g1 := by
  unfold normsMinusCrossAt sqDistAt
  choose a ha using fun d : Fin 64 => hx (ix2 b d)
  choose c hc using fun d : Fin 64 => hw (ix3 g0 g1 d)
  simp only [hwt, ha, hc, two_f32]
  exact norms_minus_cross a c

end Cert.Som

end
-- ==== Proof.Payload.lean ====
/-
  The kernel body's arithmetic at one entry.

  The body loads a block of 256 points (`v0`, 256 × 64) and the whole transposed codebook (`v1`, 64 × 4096) and stores
  `(rowNorm + colNorm) - 2 · (v0 ⬝ v1)`: the row norms `∑ d, v0 (p, d)²` kept as a column and broadcast along the
  rows, the column norms `∑ d, v1 (d, q)²` kept as a row and broadcast down the columns, and the matrix product
  of the two operands narrowed to bf16 — a change of format, hence the identity on the extended reals — into a zero
  accumulator, which is `∑ d, v0 (p, d) · v1 (d, q)`.
-/
import proofs.«145521_j85787676770973_1_alg».proof.Proof.Gen.KernelIdeal.Skeleton
import proofs.«145521_j85787676770973_1_alg».proof.Proof.SqDistLaw
import Idealize.ShloMosaic.Lib.Pipeline.Value
import Idealize.ShloMosaic.Lib.ValueLayout
import Idealize.ShloMosaic.PureOps.Ideal.Laws

noncomputable section

namespace Cert.Som

open Idealize.ShloMosaic Idealize.ShloMosaic.ValueIdx Cert.KernelIdeal Cert.KernelIdeal.Gen

/-! ## Two keepdims layouts read at an index -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two norms -/

/-- The sum of squares along a row of the point block. -/
theorem rowNorm_apply (v0 : FVec Ideal S256x64 .f32) (h : S256x64.Reduces [1] S256) (hφ : FKind.Formats .f32)
    (hacc : (0x00000000#32 : BitVec 32) = FKind.add.neutral .f32 hφ) (p : Fin 256) :
    multiReduction .add [1] S256 (mulf v0 v0) 0x00000000#32 h hφ hacc (ix1 p) = ∑ d : Fin 64, v0 (ix2 p d) * v0 (ix2 p d) := by
  refine (Ideal.multiReduction_add_single (mulf v0 v0) 0x00000000#32 h hφ hacc (ix1 p)).trans ?_
  refine Finset.sum_congr rfl fun d _ => ?_
  have e : h.lift (ix1 p) d = ix2 p d := funext fun a => Fin.ext (by match a with | ⟨0, _⟩ => rfl | ⟨1, _⟩ => rfl)
  rw [e]; rfl

/-- The sum of squares down a column of the transposed codebook. -/
theorem colNorm_apply (v1 : FVec Ideal S64x4096 .f32) (h : S64x4096.Reduces [0] S4096) (hφ : FKind.Formats .f32)
    (hacc : (0x00000000#32 : BitVec 32) = FKind.add.neutral .f32 hφ) (q : Fin 4096) :
    multiReduction .add [0] S4096 (mulf v1 v1) 0x00000000#32 h hφ hacc (ix1 q) = ∑ d : Fin 64, v1 (ix2 d q) * v1 (ix2 d q) := by
  refine (Ideal.multiReduction_add_single (mulf v1 v1) 0x00000000#32 h hφ hacc (ix1 q)).trans ?_
  refine Finset.sum_congr rfl fun d _ => ?_
  have e : h.lift (ix1 q) d = ix2 d q := funext fun a => Fin.ext (by match a with | ⟨0, _⟩ => rfl | ⟨1, _⟩ => rfl)
  rw [e]; rfl

/-! ## The matrix product -/

theorem lhs_cross_0 (i : S256x4096.Idx) (k : dot_S256x64_S64x4096_S256x4096_1_0_0_1_n_n.contr.Idx) :
    (dot_S256x64_S64x4096_S256x4096_1_0_0_1_n_n.lhsIdx i k 0).val = (i 0).val := by
  unfold DotDims.lhsIdx
  rw [dif_neg (show ¬(0 : Fin S256x64.rank) ∈ dot_S256x64_S64x4096_S256x4096_1_0_0_1_n_n.lhsBatch by decide),
    dif_pos (show (0 : Fin S256x64.rank) ∈ dot_S256x64_S64x4096_S256x4096_1_0_0_1_n_n.lhsNonContracting by decide)]
  rfl
theorem lhs_cross_1 (i : S256x4096.Idx) (k : dot_S256x64_S64x4096_S256x4096_1_0_0_1_n_n.contr.Idx) :
    (dot_S256x64_S64x4096_S256x4096_1_0_0_1_n_n.lhsIdx i k 1).val = (k ⟨0, by decide⟩).val :=
  dot_S256x64_S64x4096_S256x4096_1_0_0_1_n_n.lhsIdx_val_of_single rfl i k
theorem rhs_cross_0 (i : S256x4096.Idx) (k : dot_S256x64_S64x4096_S256x4096_1_0_0_1_n_n.contr.Idx) :
    (dot_S256x64_S64x4096_S256x4096_1_0_0_1_n_n.rhsIdx i k 0).val = (k ⟨0, by decide⟩).val :=
  dot_S256x64_S64x4096_S256x4096_1_0_0_1_n_n.rhsIdx_val_of_single rfl i k
theorem rhs_cross_1 (i : S256x4096.Idx) (k : dot_S256x64_S64x4096_S256x4096_1_0_0_1_n_n.contr.Idx) :
    (dot_S256x64_S64x4096_S256x4096_1_0_0_1_n_n.rhsIdx i k 1).val = (i 1).val := by
  unfold DotDims.rhsIdx
  rw [dif_neg (show ¬(1 : Fin S64x4096.rank) ∈ dot_S256x64_S64x4096_S256x4096_1_0_0_1_n_n.rhsBatch by decide),
    dif_pos (show (1 : Fin S64x4096.rank) ∈ dot_S256x64_S64x4096_S256x4096_1_0_0_1_n_n.rhsNonContracting by decide)]
  rfl

/-- The product into a zero accumulator at `(p, q)`: the inner product of row `p` and column `q`. -/
theorem cross_apply {φ₁ φ₂ : FTy} (a : FVec Ideal S256x64 φ₁) (b : FVec Ideal S64x4096 φ₂) (p : Fin 256) (q : Fin 4096) :
    matmul dot_S256x64_S64x4096_S256x4096_1_0_0_1_n_n none a b (constant (F := Ideal) S256x4096 .f32 0x00000000#32) (ix2 p q)
      = ∑ d : Fin 64, a (ix2 p d) * b (ix2 d q) := by
  refine (Ideal.matmul_constant_zero_apply dot_S256x64_S64x4096_S256x4096_1_0_0_1_n_n none a b (ix2 p q)).trans ?_
  rw [← Equiv.sum_comp (contrEquiv1 dot_S256x64_S64x4096_S256x4096_1_0_0_1_n_n 64 rfl rfl).symm]
  refine Finset.sum_congr rfl fun d _ => ?_
  have hd := contrEquiv1_symm_val dot_S256x64_S64x4096_S256x4096_1_0_0_1_n_n 64 rfl rfl d
  have el : dot_S256x64_S64x4096_S256x4096_1_0_0_1_n_n.lhsIdx (ix2 p q) ((contrEquiv1 dot_S256x64_S64x4096_S256x4096_1_0_0_1_n_n 64 rfl rfl).symm d) = ix2 p d :=
    funext fun ax => Fin.ext (by
      match ax with
      | ⟨0, _⟩ => exact lhs_cross_0 _ _
      | ⟨1, _⟩ => exact (lhs_cross_1 _ _).trans hd)
  have er : dot_S256x64_S64x4096_S256x4096_1_0_0_1_n_n.rhsIdx (ix2 p q) ((contrEquiv1 dot_S256x64_S64x4096_S256x4096_1_0_0_1_n_n 64 rfl rfl).symm d) = ix2 d q :=
    funext fun ax => Fin.ext (by
      match ax with
      | ⟨0, _⟩ => exact (rhs_cross_0 _ _).trans hd
      | ⟨1, _⟩ => exact rhs_cross_1 _ _)
  rw [el, er]

/-! ## The stored value -/

/-- The body's one store, read at `(p, q)` of the block: the two norms less twice the inner product. -/
theorem stored_apply (v0 : Vec Ideal S256x64 .f32) (v1 : Vec Ideal S64x4096 .f32) (p : Fin 256) (q : Fin 4096) :
    k0_pay1 (F := Ideal) v0 v1 (ix2 p q)
      = ((∑ d : Fin 64, v0 (ix2 p d) * v0 (ix2 p d)) + ∑ d : Fin 64, v1 (ix2 d q) * v1 (ix2 d q))
          - Ideal.ofBits .f32 0x40000000#32 * ∑ d : Fin 64, v0 (ix2 p d) * v1 (ix2 d q) := by
  unfold k0_pay1
  dsimp only
  rw [shapeCast_self]
  refine (subf_apply _ _ _).trans ?_
  refine congrArg₂ (· - ·) ((addf_apply _ _ _).trans (congrArg₂ (· + ·) ?_ ?_)) ((mulf_apply _ _ _).trans (congrArg₂ (· * ·) rfl ?_))
  · refine (broadcastTo_a1_ab_apply _ _ p q).trans ?_
    refine (shapeCast_a_a1_apply _ _ p 0).trans ?_
    exact rowNorm_apply v0 _ _ _ p
  · refine (broadcastTo_1b_ab_apply _ _ p q).trans ?_
    refine (shapeCast_a_1a_apply _ _ 0 q).trans ?_
    exact colNorm_apply v1 _ _ _ q
  · exact cross_apply _ _ p q

/-- The same at any index of the block. -/
theorem stored_at (v0 : Vec Ideal S256x64 .f32) (v1 : Vec Ideal S64x4096 .f32) (j : S256x4096.Idx) :
    k0_pay1 (F := Ideal) v0 v1 j
      = ((∑ d : Fin 64, v0 (ix2 (j 0) d) * v0 (ix2 (j 0) d)) + ∑ d : Fin 64, v1 (ix2 d (j 1)) * v1 (ix2 d (j 1)))
          - Ideal.ofBits .f32 0x40000000#32 * ∑ d : Fin 64, v0 (ix2 (j 0) d) * v1 (ix2 d (j 1)) :=
  (congrArg (k0_pay1 (F := Ideal) v0 v1) (eq_ix2 j)).trans (stored_apply v0 v1 (j 0) (j 1))

end Cert.Som

end
-- ==== Proof.BlocksToArray.lean ====
/-
  From blocks to the array.

  The call's grid has four points; point `t` loads rows `256 t … 256 t + 255` of the points `x` and the whole transposed
  codebook, and writes rows `256 t … 256 t + 255` of the 1024 × 4096 output.  What it writes is the block of ONE
  whole-array function, the expanded form `normsMinusCross` of the two arrays the call finds, and the four blocks tile
  the output: so the output array ends holding that function.
-/
import proofs.«145521_j85787676770973_1_alg».proof.Proof.Gen.KernelIdeal.Frame
import proofs.«145521_j85787676770973_1_alg».proof.Proof.Payload

set_option maxRecDepth 16384

noncomputable section

namespace Cert.Som

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The block indices over the grid: the points' block moves with the output's along the rows, the codebook's
    stays put, and the output's row block is the point's number. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the expanded form of the arrays the call finds. -/
theorem flushed_eq (c : Dev nD) (t : Fin cfg0.N) :
    (dats m 0 c).flushed 2 t
      = ((cfg0.win 2).blk t).view.read (Elt Ideal) (normsMinusCross (V m c main_arg0) (V m c main_v1)) := by
  show (cfg0.win 2).cut (grid0.coords t) ((dats m 0 c).after 2 t) = _
  rw [after0_2]
  unfold out0_2
  rw [View.canon_unit_zero zero_offsets]
  simp only [View.ld_unit_zero (S := S256x64) zero_offsets, View.ld_unit_zero (S := S64x4096) zero_offsets]
  obtain ⟨e0, e1, e2, e3, e4, e5⟩ := block_indices t
  funext j
  refine (stored_at (iblk m c 0 t) (iblk m c 1 t) j).trans ?_
  show _ = normsMinusCrossAt (V m c main_arg0) (V m c main_v1) ((((cfg0.win 2).blk t).view.emb j) 0) ((((cfg0.win 2).blk t).view.emb j) 1)
  unfold normsMinusCrossAt
  have hx : ∀ d : Fin 64, iblk m c 0 t (ix2 (j 0) d) = V m c main_arg0 (ix2 ((((cfg0.win 2).blk t).view.emb j) 0) d) := fun d => by
    show V m c main_arg0 (((cfg0.win 0).blk t).view.emb (ix2 (j 0) d)) = _
    refine congrArg _ (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 64 + 1 * d.val = d.val; omega
  have hw : ∀ d : Fin 64, iblk m c 1 t (ix2 d (j 1)) = V m c main_v1 (ix2 d ((((cfg0.win 2).blk t).view.emb j) 1)) := fun d => by
    show V m c main_v1 (((cfg0.win 1).blk t).view.emb (ix2 d (j 1))) = _
    refine congrArg _ (funext fun a => Fin.ext ?_)
    match a with
    | ⟨0, _⟩ => show win0_1.index t (0 : Fin 2) * 64 + 1 * d.val = d.val; omega
    | ⟨1, _⟩ => show win0_1.index t (1 : Fin 2) * 4096 + 1 * (j 1).val = win0_2.index t (1 : Fin 2) * 4096 + 1 * (j 1).val; omega
  simp only [hx, hw]

/-- An index of the output is in point `t`'s block iff each coordinate is in the block's range. -/
theorem mem_block (t : Fin cfg0.N) (i : S1024x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- Every row of the output lies in the block of the point numbered `row / 256`. -/
theorem covered (i : S1024x4096.Idx) :
    ∃ t : Fin cfg0.N, (cfg0.win 2).flush t = true ∧ i ∈ ((cfg0.win 2).blk t).view.set := by
  have hi0 : (i 0).val < 1024 := (i 0).isLt
  have hi1 : (i 1).val < 4096 := (i 1).isLt
  have hN : (i 0).val / 256 < cfg0.N := Nat.lt_of_lt_of_eq (by omega : (i 0).val / 256 < 4) N_0.symm
  obtain ⟨e0, e1, e2, e3, e4, e5⟩ := block_indices ⟨(i 0).val / 256, hN⟩
  have e4' : win0_2.index ⟨(i 0).val / 256, hN⟩ (0 : Fin 2) = (i 0).val / 256 := e4
  refine ⟨⟨(i 0).val / 256, hN⟩, flush0_2 _, ?_⟩
  rw [mem_block]
  intro a
  match a with
  | ⟨0, _⟩ =>
    show win0_2.index ⟨(i 0).val / 256, hN⟩ (0 : Fin 2) * 256 ≤ (i 0).val
      ∧ (i 0).val < win0_2.index ⟨(i 0).val / 256, hN⟩ (0 : Fin 2) * 256 + 256
    omega
  | ⟨1, _⟩ =>
    show win0_2.index ⟨(i 0).val / 256, hN⟩ (1 : Fin 2) * 4096 ≤ (i 1).val
      ∧ (i 1).val < win0_2.index ⟨(i 0).val / 256, hN⟩ (1 : Fin 2) * 4096 + 4096
    omega

/-- The output array after the call: the expanded form of the points and the transposed codebook. -/
theorem output_eq (c : Dev nD) :
    (dats m 0 c).arrAt 2 cfg0.N = normsMinusCross (V m c main_arg0) (V m c main_v1) :=
  (dats m 0 c).arrAt_eq_of_cover 2 _ (fun t _ => flushed_eq m c t) covered

end Cert.Som

end
-- ==== Proof.HostSides.lean ====
/-
  The host lines around the kernel call.

  Before it, the codebook `w` (64 × 64 × 64: grid row, grid column, feature) is flattened to 4096 × 64 and
  transposed to 64 × 4096: column `g = 64 · g0 + g1` of the result is the codeword at grid cell `(g0, g1)`.
  After it, the 1024 × 4096 array of distances is reshaped to 1024 × 64 × 64: entry `(b, g0, g1)` of the result is
  entry `(b, 64 · g0 + g1)` of the array.
-/
import proofs.«145521_j85787676770973_1_alg».proof.Proof.Gen.KernelIdeal.Frame
import proofs.«145521_j85787676770973_1_alg».proof.Proof.SqDistLaw
import Idealize.ShloMosaic.Lib.StableHlo.Run
import Idealize.ShloMosaic.Lib.ValueLayout

noncomputable section

namespace Cert.Som

open Idealize.ShloMosaic Idealize.ShloMosaic.ValueIdx Idealize.ShloMosaic.TcCoe Idealize.SL.Sem Cert.KernelIdeal Cert.KernelIdeal.Gen
open Idealize.ShloMosaic.StableHlo

variable (m : (ℓ : Loc nD τ sig) → Buf (Elt Ideal) ℓ)

/-- The kernel's second operand as the call finds it: the codebook flattened, then transposed. -/
theorem codebookT_eq (c : Dev nD) : (V m c main_v1 : S64x4096.Idx → EReal) =
    transpose S64x4096 [1, 0] (shapeCast S4096x64 (m ((c : Thread nD τ).loc main_arg1)) shapeCasts_S64x64x64_S4096x64)
      transposes_S4096x64_S64x4096_1_0 := by
  show StableHlo.after hostOps0 (fun b => m (c, b)) (Proc.devRef .tc main_v1) = _
  after_results
  rfl

/-- Its entry `(d, g)` is feature `d` of the codeword at `(g0, g1)`, where `g = 64 · g0 + g1`. -/
theorem codebookT_apply (c : Dev nD) (d : Fin 64) (g : Fin 4096) (g0 g1 : Fin 64) (hg : g.val = g0.val * 64 + g1.val) :
    (V m c main_v1 : S64x4096.Idx → EReal) (ix2 d g) = m ((c : Thread nD τ).loc main_arg1) (ix3 g0 g1 d) := by
  refine (congrFun (codebookT_eq m c) (ix2 d g)).trans ?_
  refine (transpose_ix2_apply _ _ d g).trans ?_
  exact shapeCast_apply _ _ _ _ (by
    show (S64x64x64.rowMajor (ix3 g0 g1 d)).val = (S4096x64.rowMajor (ix2 g d)).val
    rw [Shape.rowMajor_val_three, Shape.rowMajor_val_two]
    show (g0.val * 64 + g1.val) * 64 + d.val = g.val * 64 + d.val
    rw [hg])

/-- The program's result: the call's output array, reshaped. -/
theorem result_eq (c : Dev nD) : (Pipeline.afterTail₀ cfgs (dats m) 0 (V0 m) [hostOps1] c main_v3 : S1024x64x64.Idx → EReal) =
    shapeCast S1024x64x64 ((dats m 0 c).arrAt 2 cfg0.N) shapeCasts_S1024x4096_S1024x64x64 := by
  unfold Pipeline.afterTail₀
  show StableHlo.after hostOps1 _ (Proc.devRef .tc main_v3) = _
  after_results
  funext i
  exact congrArg (fun A => shapeCast S1024x64x64 A shapeCasts_S1024x4096_S1024x64x64 i)
    (Pipeline.withArrays_arr spec0 launch0.win.arr_inj c _ _ 2)

/-- A 1024 × 4096 array reshaped to 1024 × 64 × 64 reads, at `(b, g0, g1)`, the array at `(b, 64 · g0 + g1)`. -/
theorem unflatten_apply {α : Type} (A : S1024x4096.Idx → α) (h : S1024x4096.ShapeCasts S1024x64x64)
    (b : Fin 1024) (g0 g1 : Fin 64) (g : Fin 4096) (hg : g.val = g0.val * 64 + g1.val) :
    shapeCast S1024x64x64 A h (ix3 b g0 g1) = A (ix2 b g) :=
  shapeCast_apply _ _ _ _ (by
    show (S1024x4096.rowMajor (ix2 b g)).val = (S1024x64x64.rowMajor (ix3 b g0 g1)).val
    rw [Shape.rowMajor_val_three, Shape.rowMajor_val_two]
    show b.val * 4096 + g.val = (b.val * 64 + g0.val) * 64 + g1.val
    rw [hg]; ring)

end Cert.Som

end
-- ==== Proof.KernelValue.lean ====
/-
  The kernel program's result is the squared distances.

  The call leaves the expanded form `‖x‖² + ‖w‖² - 2 x·w` of the points and the transposed codebook in its output
  array; the reshape after it reads entry `(b, 64 · g0 + g1)` at `(b, g0, g1)`, where the transposed codebook's column is
  the codeword at `(g0, g1)`; and with every entry real the expanded form is `∑ d, (w (g0, g1, d) - x (b, d))²`.
-/
import proofs.«145521_j85787676770973_1_alg».proof.Proof.BlocksToArray
import proofs.«145521_j85787676770973_1_alg».proof.Proof.HostSides

noncomputable section

namespace Cert.Som

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- What the lines after the call leave in the result buffer, for real inputs. -/
theorem kernel_result (c : Dev nD) (hx : AllReal (m ((c : Thread nD τ).loc main_arg0)))
    (hw : AllReal (m ((c : Thread nD τ).loc main_arg1))) :
    (Pipeline.afterTail₀ cfgs (dats m) 0 (V0 m) [hostOps1] c main_v3 : S1024x64x64.Idx → EReal)
      = sqDist (m ((c : Thread nD τ).loc main_arg0)) (m ((c : Thread nD τ).loc main_arg1)) := by
  rw [result_eq, output_eq]
  funext i
  obtain ⟨b, g0, g1, rfl⟩ : ∃ (b : Fin 1024) (g0 g1 : Fin 64), i = ix3 b g0 g1 := ⟨i 0, i 1, i 2, eq_ix3 i⟩
  have hg : g0.val * 64 + g1.val < 4096 := by have := g0.isLt; have := g1.isLt; omega
  refine (unflatten_apply _ _ b g0 g1 ⟨g0.val * 64 + g1.val, hg⟩ rfl).trans ?_
  show normsMinusCrossAt (V m c main_arg0) (V m c main_v1) b ⟨g0.val * 64 + g1.val, hg⟩
    = sqDistAt (m ((c : Thread nD τ).loc main_arg0)) (m ((c : Thread nD τ).loc main_arg1)) b g0 g1
  rw [V_main_arg0]
  exact normsMinusCrossAt_eq _ _ _ hx hw b _ g0 g1 (fun d => codebookT_apply m c d _ g0 g1 rfl)

/-- The kernel program's run, read: the result buffer ends at the squared distances of its arguments, which end
    unchanged. -/
theorem kernel_run (hx : ∀ c : Dev nD, AllReal (m ((c : Thread nD τ).loc main_arg0)))
    (hw : ∀ c : Dev nD, AllReal (m ((c : Thread nD τ).loc main_arg1))) :
    θ_run defs (onTc (τ := τ) (main (F := Ideal))) ⟨m, fun _ => 0, ρ⟩ (fun r => ∀ c : Dev nD,
      r.2.mem ((c.tc : Thread nD τ).loc main_v3) = sqDist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (kernel_result m c (hx c) (hw c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Som

end
-- ==== Proof.RefIsSqDist.lean ====
/-
  The reference computes the squared distances in the difference form: it broadcasts the codebook over the
  points and the points over the grid, subtracts, squares, and sums the 64 features from zero.  Read at an index
  `(b, g0, g1)` that is `∑ d, (w (g0, g1, d) - x (b, d))²`.
-/
import proofs.«145521_j85787676770973_1_alg».proof.Proof.Gen.ReferenceIdeal.Read
import proofs.«145521_j85787676770973_1_alg».proof.Proof.SqDistLaw

noncomputable section

namespace Cert.Som

open Idealize.ShloMosaic Idealize.ShloMosaic.ValueIdx Cert.ReferenceIdeal

/-- The reference's last stage is `sqDist` of its two arguments. -/
theorem reference_eq_sqDist (x : FVec Ideal S1024x64 .f32) (w : FVec Ideal S64x64x64 .f32) :
    Read.val_main_v6 (F := Ideal) x w = sqDist x w := by
  funext i
  rw [Read.val_main_v6_apply]
  simp only [Read.val_main_v5_apply, Read.val_main_v4_apply, Read.val_main_v2_apply, Read.val_main_v3_apply,
    Read.val_main_v0_apply, Read.val_main_v1_apply, Read.val_main_cst_apply, Ideal.ofBits_def, Ideal.ofBits_zero_f32,
    zero_add, Ideal.mulf_def, Ideal.subf_def]
  unfold sqDist sqDistAt
  refine Finset.sum_congr rfl fun d _ => ?_
  have ew : Read.idx_main_v0 (Read.idx_main_v2 (Read.idx_main_v6 i d)) = ix3 (i 1) (i 2) d :=
    funext fun a => Fin.ext (by match a with | ⟨0, _⟩ => rfl | ⟨1, _⟩ => rfl | ⟨2, _⟩ => rfl)
  have ex : Read.idx_main_v1 (Read.idx_main_v3 (Read.idx_main_v6 i d)) = ix2 (i 0) d :=
    funext fun a => Fin.ext (by match a with | ⟨0, _⟩ => rfl | ⟨1, _⟩ => rfl)
  rw [ew, ex]
  rfl

end Cert.Som

end
-- ==== Proof.FiniteInputs.lean ====
/-
  The precondition read back: every entry of both inputs is a real number.

  The precondition is `all (|x| < +∞) ∧ all (|w| < +∞)` as one word.  An extended real whose absolute value
  `max a (-a)` lies strictly below `+∞` is neither infinity, hence a real.
-/
import proofs.«145521_j85787676770973_1_alg».proof.Pre_finite_inputs
import proofs.«145521_j85787676770973_1_alg».proof.Proof.SqDistLaw
import Idealize.ShloMosaic.Lib.ReduceAll

noncomputable section

namespace Cert.Som

open Idealize.ShloMosaic Idealize.ShloMosaic.ValueIdx

/-- The f32 pattern with all exponent bits set and no fraction denotes `+∞`. -/
theorem inf_f32 : Ideal.ofBits .f32 0x7F800000#32 = (⊤ : EReal) := by
  simp [Ideal.ofBits, Ideal.ieee]

/-- An extended real whose absolute value is below `+∞` is a real. -/
theorem real_of_abs_lt_top (a : EReal) (h : max a (-a) < ⊤) : ∃ r : ℝ, a = (r : EReal) := by
  induction a using EReal.rec with
  | bot => simp at h
  | coe r => exact ⟨r, rfl⟩
  | top => simp at h

/-- The same from the comparison word: `|a| < +∞` answered true. -/
theorem real_of_lt_inf (a : EReal) (h : Ideal.cmp .olt (max a (-a)) (Ideal.ofBits .f32 0x7F800000#32) = 1#1) :
    ∃ r : ℝ, a = (r : EReal) := by
  rw [inf_f32] at h
  refine real_of_abs_lt_top a ?_
  by_contra hn
  simp [Ideal.cmp, hn] at h

/-- A rank-0 array has one index. -/
instance : Subsingleton Cert.Pre_finite_inputs.S_.Idx := ⟨fun a b => funext fun d => d.elim0⟩

/-- Where the precondition's word is one, both inputs hold only reals. -/
theorem allReal_of_pre [Cert.Pre_finite_inputs.Facts] (x : FVec Ideal Cert.Pre_finite_inputs.S1024x64 .f32)
    (w : FVec Ideal Cert.Pre_finite_inputs.S64x64x64 .f32)
    (h : Cert.Pre_finite_inputs.fn (F := Ideal) x w = fun _ => 1#1) : AllReal x ∧ AllReal w := by
  have h0 := congrFun h ValueIdx.ix0
  dsimp only [Cert.Pre_finite_inputs.fn] at h0
  obtain ⟨h1, h2⟩ := IntOp.andi_eq_one.1 h0
  have e1 := fun i => Host.reduce_andi_all _ _ _ _ _ h1 i
  have e2 := fun i => Host.reduce_andi_all _ _ _ _ _ h2 i
  exact ⟨fun i => real_of_lt_inf (x i) (e1 i), fun i => real_of_lt_inf (w i) (e2 i)⟩

end Cert.Som

end
-- ==== Proof.lean ====
/-
  Squared distances from 1024 points to a 64 × 64 grid of codewords, 64 features each: the kernel computes
  `‖x‖² + ‖w‖² - 2 x·w` block by block (the inner products as one matrix product against the codebook flattened and
  transposed), the reference `∑ d, (w d - x d)²` directly.  On finite inputs the two agree entry by entry: the square
  expanded and summed.  The kernel's value is read off its frame run (Proof/BlocksToArray.lean over Proof/Payload.lean,
  the host lines in Proof/HostSides.lean, joined in Proof/KernelValue.lean), the reference's off its run
  (Proof/RefIsSqDist.lean), finiteness off the precondition (Proof/FiniteInputs.lean), and the law is
  Proof/SqDistLaw.lean.  The idealization rewrote nothing, so `preserves` has nothing to state.
-/
import proofs.«145521_j85787676770973_1_alg».proof.Defs
import proofs.«145521_j85787676770973_1_alg».proof.Proof.Gen.Kernel
import proofs.«145521_j85787676770973_1_alg».proof.Proof.Gen.Kernel.Skeleton
import proofs.«145521_j85787676770973_1_alg».proof.Proof.Gen.Kernel.Launch
import proofs.«145521_j85787676770973_1_alg».proof.Proof.Gen.Kernel.Points
import proofs.«145521_j85787676770973_1_alg».proof.Proof.Gen.Kernel.Frame
import proofs.«145521_j85787676770973_1_alg».proof.Proof.Gen.KernelIdeal
import proofs.«145521_j85787676770973_1_alg».proof.Proof.Gen.KernelIdeal.Skeleton
import proofs.«145521_j85787676770973_1_alg».proof.Proof.Gen.KernelIdeal.Launch
import proofs.«145521_j85787676770973_1_alg».proof.Proof.Gen.KernelIdeal.Points
import proofs.«145521_j85787676770973_1_alg».proof.Proof.Gen.KernelIdeal.Frame
import proofs.«145521_j85787676770973_1_alg».proof.Proof.Gen.ReferenceIdeal
import proofs.«145521_j85787676770973_1_alg».proof.Proof.Gen.Pre_finite_inputs
import proofs.«145521_j85787676770973_1_alg».proof.Proof.Gen.ReferenceIdeal.Run
import proofs.«145521_j85787676770973_1_alg».proof.Proof.Gen.ReferenceIdeal.Read
import proofs.«145521_j85787676770973_1_alg».proof.Proof.KernelValue
import proofs.«145521_j85787676770973_1_alg».proof.Proof.RefIsSqDist
import proofs.«145521_j85787676770973_1_alg».proof.Proof.FiniteInputs
import Idealize.ShloMosaic.Adequacy
import Idealize.ShloMosaic.Init

noncomputable section

namespace Cert.Proof

open Idealize.ShloMosaic Idealize.SL.Sem

/-- Both programs end with the squared distances of arguments that agree: the kernel's run read as `sqDist` (using
    that the precondition makes every entry real), the reference's run read as the same function. -/
theorem algebraic : Cert.algebraic_KernelIdeal_ReferenceIdeal := by
  intro m ρ m' ρ' hpre hagree
  have hfin := fun c => Cert.Som.allReal_of_pre _ _ (hpre c)
  refine ⟨fun c => Cert.Som.sqDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Som.kernel_run m ρ (fun c => (hfin c).1) (fun c => (hfin c).2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.Som.reference_eq_sqDist, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
